-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S128x128 : Shape := ⟨2, ![128, 128]⟩
abbrev S512x1024 : Shape := ⟨2, ![512, 1024]⟩
abbrev S1024x1024 : Shape := ⟨2, ![1024, 1024]⟩
abbrev S8x128 : Shape := ⟨2, ![8, 128]⟩
abbrev S1x1 : Shape := ⟨2, ![1, 1]⟩
abbrev S512 : Shape := ⟨1, ![512]⟩
abbrev S512x1 : Shape := ⟨2, ![512, 1]⟩
abbrev S1 : Shape := ⟨1, ![1]⟩

abbrev nBuf : Space → Nat
  | .hbm => 29
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .bf16⟩
  | .hbm, ⟨24, _⟩ => ⟨S128x128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S512x1024_d0_w32 : S512x1024.Iotas .tc 32 [0]
  iota_S512x1024_d1_w32 : S512x1024.Iotas .tc 32 [1]
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  inpos_S1x1_p0_0 : ∀ a, (![0, 0] : Fin 2 → Nat) a < S1x1.size a
  inb_S8x128_S8x128_0_0 : ∀ a, (![0, 0] : Fin 2 → Nat) a + S8x128.size a ≤ S8x128.size a
  h_S8x128 : 0 < S8x128.numel
  reducesTo_S128x128_S_d0_1 : S128x128.ReducesTo [0, 1] S_
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S128x128.size a
  hwx0_2 : ∀ i : grid0.Coords, EltTy.bits .f32 = 32 ∨ (Rect.block (s := S128x128) S8x128.size (cc0_transform_2 i) (hinb0_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x8192, .f32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S_S8192x8192 : S_.BroadcastsInDim S8192x8192 (![] : Fin 0 → Fin S8192x8192.rank)
  reducesTo_S8192x8192_S_d0_1 : S8192x8192.ReducesTo [0, 1] S_
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.Stored.lean ====
/-
  What one run of the kernel body leaves behind, read back as values.

  The body keeps a one-entry running total in a scratch cell. At a grid point (i, j) it
    * clears the cell when j = 0,
    * adds to the cell the sum of the 512 x 1024 tile of losses of row block i against column block j,
    * writes to its 8 x 128 output block the cell's new value at entry (0, 0) and zero elsewhere.
  So the cell ends at   (old cell, or the zero just stored) + tile total,
  and the output block at the mask of that new value. The statements below say exactly this, for any
  float instance, in terms of the body's named pure terms: the stored zero, the updated cell as a function
  of the two input tiles and of the cell's previous contents, and the masked block as a function of the cell.
-/
import proofs.«158679_j36610301231301_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Stored
open Cert.KernelIdeal Cert.KernelIdeal.Gen

variable {F : FTy → Type} [FloatOps F]

/-- Offsets (0, 0): every load and store of the body starts at the origin of its buffer. -/
theorem origin : (![0, 0] : Fin 2 → Nat) = fun _ => 0 := funext fun a => by fin_cases a <;> rfl

/-- The column coordinate of the output block, as the body computes it. -/
abbrev lanes : IVec S8x128 32 := iota .tc S8x128 32 [1] Facts₀.iota_S8x128_d1_w32

/-- A load of a whole buffer after several stores, the last of which wrote the whole buffer, reads that last
    store's value (the earlier stores are overwritten). -/
theorem readCov_last_store {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl,
    View.ld_unit_zero rfl]

/-- A point with j ≠ 0: the cell, holding `acc`, ends at the update of `acc` by the tile of `x` against `y`. -/
theorem cell_next (c : Dev nD) (i : grid0.Coords) (a2 : Memref sig .tc .vmem S512x1024 .bf16) (h2 : a2.IsWhole)
    (a3 : Memref sig .tc .vmem S1024x1024 .bf16) (h3 : a3.IsWhole) (a4 : Memref sig .tc .vmem S8x128 .f32) (h4 : a4.IsWhole)
    (a5 : Memref sig .tc .vmem S1x1 .f32) (h5 : a5.IsWhole) (hc : ¬cond0_0 i)
    (x : Vec F S512x1024 .bf16) (y : Vec F S1024x1024 .bf16) (acc : Vec F S1x1 .f32) :
    sout0_B_0 c i a2 h2 a3 h3 a4 h4 a5 h5 hc x y acc = k0_pay3 i x y acc := by
  unfold sout0_B_0
  rw [View.read_writes_eq_canon _ _ _ (scover0_B_0 c i a2 h2 a3 h3 a4 h4 a5 h5 hc x y acc)]
  unfold kernelRun0_B
  dsimp only
  sl_unfold_words
  rw [View.canon_unit_zero origin]
  simp only [View.readAt_eq_ld, h2.read_unread, h3.read_unread, h5.read_unread, View.ld_unit_zero (S := S512x1024) origin,
    View.ld_unit_zero (S := S1024x1024) origin, View.ld_unit_zero (S := S1x1) origin]

/-- A point with j = 0: the cell is first cleared, so it ends at the update of the stored zero. -/
theorem cell_first (c : Dev nD) (i : grid0.Coords) (a2 : Memref sig .tc .vmem S512x1024 .bf16) (h2 : a2.IsWhole)
    (a3 : Memref sig .tc .vmem S1024x1024 .bf16) (h3 : a3.IsWhole) (a4 : Memref sig .tc .vmem S8x128 .f32) (h4 : a4.IsWhole)
    (a5 : Memref sig .tc .vmem S1x1 .f32) (h5 : a5.IsWhole) (hc : cond0_0 i)
    (x : Vec F S512x1024 .bf16) (y : Vec F S1024x1024 .bf16) :
    sout0_A_0 c i a2 h2 a3 h3 a4 h4 a5 h5 hc x y = k0_pay3 i x y k0_pay2 := by
  unfold sout0_A_0
  rw [View.read_writes_eq_canon _ _ _ (scover0_A_0 c i a2 h2 a3 h3 a4 h4 a5 h5 hc x y)]
  unfold kernelRun0_A
  dsimp only
  sl_unfold_words
  rw [View.canon_cons_unit_zero (S := S1x1) origin, View.readCov_unit_zero (S := S1x1) _ origin]
  simp only [View.readAt_eq_ld, h2.read_unread, h3.read_unread, View.ld_unit_zero (S := S512x1024) origin,
    View.ld_unit_zero (S := S1024x1024) origin, View.ld_unit_zero (S := S1x1) origin]

/-- A point with j ≠ 0: the output block is the mask of the cell's new value. -/
theorem block_next (c : Dev nD) (i : grid0.Coords) (a2 : Memref sig .tc .vmem S512x1024 .bf16) (h2 : a2.IsWhole)
    (a3 : Memref sig .tc .vmem S1024x1024 .bf16) (h3 : a3.IsWhole) (a4 : Memref sig .tc .vmem S8x128 .f32) (h4 : a4.IsWhole)
    (a5 : Memref sig .tc .vmem S1x1 .f32) (h5 : a5.IsWhole) (hc : ¬cond0_0 i)
    (x : Vec F S512x1024 .bf16) (y : Vec F S1024x1024 .bf16) (acc : Vec F S1x1 .f32) :
    out0_B_2 c i a2 h2 a3 h3 a4 h4 a5 h5 hc x y acc = k0_pay1 lanes k0_pay4 (k0_pay3 i x y acc) := by
  unfold out0_B_2
  rw [View.read_writes_eq_canon _ _ _ (cover0_B_2 c i a2 h2 a3 h3 a4 h4 a5 h5 hc x y acc)]
  unfold kernelRun0_B
  dsimp only
  sl_unfold_words
  rw [View.canon_unit_zero origin]
  simp only [View.readAt_eq_ld, h2.read_unread, h3.read_unread, h5.read_unread, View.ld_unit_zero (S := S512x1024) origin,
    View.ld_unit_zero (S := S1024x1024) origin, View.ld_unit_zero (S := S1x1) origin,
    View.readCov_unit_zero (S := S1x1) _ origin]

/-- A point with j = 0: the same over the cleared cell. -/
theorem block_first (c : Dev nD) (i : grid0.Coords) (a2 : Memref sig .tc .vmem S512x1024 .bf16) (h2 : a2.IsWhole)
    (a3 : Memref sig .tc .vmem S1024x1024 .bf16) (h3 : a3.IsWhole) (a4 : Memref sig .tc .vmem S8x128 .f32) (h4 : a4.IsWhole)
    (a5 : Memref sig .tc .vmem S1x1 .f32) (h5 : a5.IsWhole) (hc : cond0_0 i)
    (x : Vec F S512x1024 .bf16) (y : Vec F S1024x1024 .bf16) :
    out0_A_2 c i a2 h2 a3 h3 a4 h4 a5 h5 hc x y = k0_pay1 lanes k0_pay4 (k0_pay3 i x y k0_pay2) := by
  unfold out0_A_2
  rw [View.read_writes_eq_canon _ _ _ (cover0_A_2 c i a2 h2 a3 h3 a4 h4 a5 h5 hc x y)]
  unfold kernelRun0_A
  dsimp only
  sl_unfold_words
  rw [View.canon_unit_zero origin, readCov_last_store (S := S1x1) _ origin, View.readCov_unit_zero (S := S1x1) _ origin]
  simp only [View.readAt_eq_ld, h2.read_unread, h3.read_unread, View.ld_unit_zero (S := S512x1024) origin,
    View.ld_unit_zero (S := S1024x1024) origin]

end Cert.KernelIdeal.Stored
end
-- ==== Proof.LibColumn.lean ====
/-
  A row sum kept as a column: two layout steps read at an index, for any element type and any extents, and the
  square root of a vector of extended reals read at an index.

  * a vector [a] viewed as a column [a, 1] reads, at (p, u), the vector at p;
  * a column [a, 1] broadcast along the columns to [a, b] reads, at (p, q), the column at (p, 0).
-/
import Idealize.ShloMosaic.Lib.Pipeline.Value
import Idealize.ShloMosaic.Lib.ValueIdx

noncomputable section

namespace Cert.NegDist.Column

open Idealize.ShloMosaic Idealize.ShloMosaic.ValueIdx

section Layout
variable {α : Type}

/-- A vector [a] viewed as a column [a, 1] reads, at (p, u), the vector at p: both sit at row-major position p. -/
theorem column_of_vector_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [a, 1] broadcast along the columns to [a, b] reads, at (p, q), the column at (p, 0): the row coordinate
    is kept (also when a = 1, where it is 0 anyway) and the unit axis reads its one coordinate. -/
theorem column_broadcast_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-- The root of a vector of extended reals at an index is the root of the element. -/
theorem sqrt_apply {s : Shape} {φ : FTy} (a : FVec Ideal s φ) (i : s.Idx) : sqrt a i = Ideal.sqrt (a i) := rfl

end Cert.NegDist.Column

end
-- ==== Proof.LibRowLayout.lean ====
/-
  Layout operations of a ROW-BLOCKED kernel read at an index given by coordinates, for any number of rows `n`.

  A kernel that works on a block of `n` batch rows meets the same few compositions again and again; each lemma here
  reads one of them at an index written `ix1 … ix3`, so that it applies to a printed payload by unification, whatever
  `n` is (the kernel's block has 1024 rows, an array 16384; nothing here depends on it):
  * a per-row column of scalars `[n, a]` given a trailing unit axis and broadcast along it to `[n, a, b]`
    (`x[:, :, None]` against an `[n, a, b]` operand): `colBcast3_apply`;
  * a table `[a, b]` given a leading unit axis and broadcast over the rows to `[n, a, b]` (`w[None, :, :]`):
    `rowBcast3_apply`; a vector `[b]` broadcast over the rows to `[n, b]`: `rowBcast2_apply`;
  * `[n, a, c]` flattened to `[n, a · c]` (`.reshape(n, -1)`): position `k = f · c + e` of row `y` is the
    operand at `(y, f, e)`: `flatten_apply`;
  * two blocks `[n, p]`, `[n, q]` joined along the columns: `concatCols_apply`, the left block below column `p`, the
    right block from it on;
  * a sum over the columns of `[n, K]`, and over the middle axis of `[n, a, b]`, at the ideal values, as `Fin`-indexed
    sums over coordinates: `sumCols_apply`, `sumMid_apply`.
-/
import Idealize.ShloMosaic.Lib.ValueLayout
import Idealize.ShloMosaic.PureOps.Ideal.Laws

namespace Cert.RowLayout

open Idealize.ShloMosaic Idealize.ShloMosaic.ValueIdx

variable {α : Type}

/-- `x[:, :, None]` broadcast to `[n, a, b]`, read at `(y, f, e)`, is `x` at `(y, f)`. -/
theorem colBcast3_apply {n a b : ℕ} (x : (⟨2, ![n, a]⟩ : Shape).Idx → α)
    (h1 : (⟨2, ![n, a]⟩ : Shape).ShapeCasts ⟨3, ![n, a, 1]⟩)
    (h2 : (⟨3, ![n, a, 1]⟩ : Shape).Broadcasts ⟨3, ![n, a, b]⟩) (y : Fin n) (f : Fin a) (e : Fin b) :
    broadcastTo ⟨3, ![n, a, b]⟩ (shapeCast ⟨3, ![n, a, 1]⟩ x h1) h2 (ix3 y f e) = x (ix2 y f) := by
  refine (broadcastTo_apply _ h2 (ix3 y f e) (ix3 y f (0 : Fin 1)) fun ax => ?_).trans ?_
  · match ax with
    | ⟨0, _⟩ =>
      show y.val = if n = 1 then 0 else y.val
      split
      · have := y.isLt; omega
      · rfl
    | ⟨1, _⟩ =>
      show f.val = if a = 1 then 0 else f.val
      split
      · have := f.isLt; omega
      · rfl
    | ⟨2, _⟩ => rfl
  · exact shapeCast_apply x h1 _ _ (by
      rw [Shape.rowMajor_val_two, Shape.rowMajor_val_three]
      show y.val * a + f.val = (y.val * a + f.val) * 1 + 0
      omega)

/-- `w[None, :, :]` broadcast to `[n, a, b]`, read at `(y, f, e)`, is `w` at `(f, e)`. -/
theorem rowBcast3_apply {n a b : ℕ} (w : (⟨2, ![a, b]⟩ : Shape).Idx → α)
    (h1 : (⟨2, ![a, b]⟩ : Shape).ShapeCasts ⟨3, ![1, a, b]⟩)
    (h2 : (⟨3, ![1, a, b]⟩ : Shape).Broadcasts ⟨3, ![n, a, b]⟩) (y : Fin n) (f : Fin a) (e : Fin b) :
    broadcastTo ⟨3, ![n, a, b]⟩ (shapeCast ⟨3, ![1, a, b]⟩ w h1) h2 (ix3 y f e) = w (ix2 f e) := by
  refine (broadcastTo_apply _ h2 (ix3 y f e) (ix3 (0 : Fin 1) f e) fun ax => ?_).trans
    (shapeCast_ab_1ab_apply w h1 0 f e)
  match ax with
  | ⟨0, _⟩ => rfl
  | ⟨1, _⟩ =>
    show f.val = if a = 1 then 0 else f.val
    split
    · have := f.isLt; omega
    · rfl
  | ⟨2, _⟩ =>
    show e.val = if b = 1 then 0 else e.val
    split
    · have := e.isLt; omega
    · rfl

/-- A vector `[b]` broadcast over the rows to `[n, b]`, read at `(y, j)`, is the vector at `j`. -/
theorem rowBcast2_apply {n b : ℕ} (v : (⟨1, ![b]⟩ : Shape).Idx → α)
    (h1 : (⟨1, ![b]⟩ : Shape).ShapeCasts ⟨2, ![1, b]⟩)
    (h2 : (⟨2, ![1, b]⟩ : Shape).Broadcasts ⟨2, ![n, b]⟩) (y : Fin n) (j : Fin b) :
    broadcastTo ⟨2, ![n, b]⟩ (shapeCast ⟨2, ![1, b]⟩ v h1) h2 (ix2 y j) = v (ix1 j) :=
  (broadcastTo_1b_ab_apply _ h2 y j).trans (shapeCast_a_1a_apply v h1 0 j)

/-- `[n, a, c]` flattened to `[n, m]`, `m = a · c`: position `k = f · c + e` of row `y` is the operand at `(y, f, e)`. -/
theorem flatten_apply {n a c m : ℕ} (x : (⟨3, ![n, a, c]⟩ : Shape).Idx → α)
    (h : (⟨3, ![n, a, c]⟩ : Shape).ShapeCasts ⟨2, ![n, m]⟩) (hm : m = a * c)
    (y : Fin n) (k : Fin m) (f : Fin a) (e : Fin c) (hk : k.val = f.val * c + e.val) :
    shapeCast ⟨2, ![n, m]⟩ x h (ix2 y k) = x (ix3 y f e) :=
  shapeCast_apply x h _ _ (by
    rw [Shape.rowMajor_val_three, Shape.rowMajor_val_two]
    show (y.val * a + f.val) * c + e.val = y.val * m + k.val
    rw [hk, hm]; ring)

/-- Two blocks joined along the columns: below column `p` the left block, from `p` on the right block `p` columns back. -/
theorem concatCols_apply {n p q m : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, m]⟩ 1) (hm : m = p + q)
    (y : Fin n) (k : Fin m) :
    concatenate ⟨2, ![n, m]⟩ 1 [⟨⟨2, ![n, p]⟩, x₁⟩, ⟨⟨2, ![n, q]⟩, x₂⟩] h (ix2 y k)
      = if hk : k.val < p then x₁ (ix2 y ⟨k.val, hk⟩) else x₂ (ix2 y ⟨k.val - p, by have := k.isLt; omega⟩) := by
  by_cases hk : k.val < p
  · rw [dif_pos hk]
    exact concatenate_pair_apply_left (1 : Fin 2) x₁ x₂ h (ix2 y k) rfl (ix2 y ⟨k.val, hk⟩) (fun b => by
      match b with
      | ⟨0, _⟩ => rfl
      | ⟨1, _⟩ => rfl)
  · rw [dif_neg hk]
    exact concatenate_pair_apply_right (1 : Fin 2) x₁ x₂ h (ix2 y k) rfl rfl
      (ix2 y ⟨k.val - p, by have := k.isLt; omega⟩) (fun b hb => by
        match b, hb with
        | ⟨0, _⟩, _ => rfl
        | ⟨1, _⟩, hb => exact absurd rfl hb)
      (by show (k.val - p) + p = k.val; omega)

variable {φ : FTy}

/-- A sum over the columns, at the ideal values: at row `y`, the sum over the column coordinate. -/
theorem sumCols_apply {n K : ℕ} (src : FVec Ideal ⟨2, ![n, K]⟩ φ) (acc : BitVec φ.bits)
    (h : (⟨2, ![n, K]⟩ : Shape).Reduces [1] ⟨1, ![n]⟩) (hφ : FKind.Formats φ) (hacc : acc = FKind.add.neutral φ hφ)
    (y : Fin n) :
    multiReduction .add [1] ⟨1, ![n]⟩ src acc h hφ hacc (ix1 y) = ∑ k : Fin K, src (ix2 y k) := by
  refine (Ideal.multiReduction_add_single src acc h hφ hacc (ix1 y)).trans ?_
  refine Finset.sum_congr rfl fun k _ => congrArg src (funext fun c => Fin.ext ?_)
  match c with
  | ⟨0, _⟩ => rfl
  | ⟨1, _⟩ => rfl

/-- A sum over the middle axis of `[n, a, b]`, at the ideal values: at `(y, e)`, the sum over the middle coordinate. -/
theorem sumMid_apply {n a b : ℕ} (src : FVec Ideal ⟨3, ![n, a, b]⟩ φ) (acc : BitVec φ.bits)
    (h : (⟨3, ![n, a, b]⟩ : Shape).Reduces [1] ⟨2, ![n, b]⟩) (hφ : FKind.Formats φ)
    (hacc : acc = FKind.add.neutral φ hφ) (y : Fin n) (e : Fin b) :
    multiReduction .add [1] ⟨2, ![n, b]⟩ src acc h hφ hacc (ix2 y e) = ∑ f : Fin a, src (ix3 y f e) := by
  refine (Ideal.multiReduction_add_single src acc h hφ hacc (ix2 y e)).trans ?_
  refine Finset.sum_congr rfl fun k _ => congrArg src (funext fun c => Fin.ext ?_)
  match c with
  | ⟨0, _⟩ => rfl
  | ⟨1, _⟩ => rfl
  | ⟨2, _⟩ => rfl

end Cert.RowLayout
-- ==== Proof.Diagonal.lean ====
/-
  The diagonal test, as both programs compute it on 32-bit words, is the comparison of the natural row and column
  numbers: none of the sums and products involved reaches 2^32.

  The kernel tests  i*512 + p = j*1024 + q  for a row p of row block i and a column q of column block j;
  the reference tests  r + 0 = c  on the whole 8192 x 8192 matrix.
-/
import Idealize.ShloMosaic.PureOps

namespace Cert.Diagonal

open Idealize.ShloMosaic

/-- The one-bit word that is set exactly on the diagonal. -/
def bit (r c : ℕ) : BitVec 1 := if r = c then 1#1 else 0#1

theorem bit_self (r : ℕ) : bit r r = 1#1 := if_pos rfl
theorem bit_ne {r c : ℕ} (h : r ≠ c) : bit r c = 0#1 := if_neg h

/-- Equality of two words below 2^32 written from naturals is equality of the naturals. -/
theorem cmpi_eq_ofNat {a b : ℕ} (ha : a < 2 ^ 32) (hb : b < 2 ^ 32) :
    IntOp.cmpi .eq (BitVec.ofNat 32 a) (BitVec.ofNat 32 b) = bit a b := by
  unfold IntOp.cmpi bit
  by_cases h : a = b
  · subst h; simp
  · have hne : (BitVec.ofNat 32 a == BitVec.ofNat 32 b) = false := beq_eq_false_iff_ne.mpr fun e => h (by
      have := congrArg BitVec.toNat e
      simp only [BitVec.toNat_ofNat] at this
      rwa [Nat.mod_eq_of_lt ha, Nat.mod_eq_of_lt hb] at this)
    rw [if_neg h]
    show BitVec.ofBool (BitVec.ofNat 32 a == BitVec.ofNat 32 b) = 0#1
    rw [hne]; rfl

/-- The kernel's test at row p of row block i, column q of column block j. -/
theorem kernel_test {i j p q : ℕ} (hi : i < 16) (hj : j < 8) (hp : p < 512) (hq : q < 1024) :
    IntOp.cmpi .eq (IntOp.addi (Scalar.muli (BitVec.ofNat 32 i) 512#32) (BitVec.ofNat 32 p))
        (IntOp.addi (Scalar.muli (BitVec.ofNat 32 j) 1024#32) (BitVec.ofNat 32 q))
      = bit (512 * i + p) (1024 * j + q) := by
  have e1 : IntOp.addi (Scalar.muli (BitVec.ofNat 32 i) 512#32) (BitVec.ofNat 32 p) = BitVec.ofNat 32 (512 * i + p) := by
    unfold IntOp.addi Scalar.muli IntOp.muli
    apply BitVec.eq_of_toNat_eq
    simp only [BitVec.toNat_add, BitVec.toNat_mul, BitVec.toNat_ofNat]
    omega
  have e2 : IntOp.addi (Scalar.muli (BitVec.ofNat 32 j) 1024#32) (BitVec.ofNat 32 q) = BitVec.ofNat 32 (1024 * j + q) := by
    unfold IntOp.addi Scalar.muli IntOp.muli
    apply BitVec.eq_of_toNat_eq
    simp only [BitVec.toNat_add, BitVec.toNat_mul, BitVec.toNat_ofNat]
    omega
  rw [e1, e2]
  exact cmpi_eq_ofNat (by omega) (by omega)

/-- The reference's test at (r, c). -/
theorem reference_test {r c : ℕ} (hr : r < 8192) (hc : c < 8192) :
    IntOp.cmpi .eq (IntOp.addi (BitVec.ofNat 32 r) 0#32) (BitVec.ofNat 32 c) = bit r c := by
  have e1 : IntOp.addi (BitVec.ofNat 32 r) 0#32 = BitVec.ofNat 32 r := by
    unfold IntOp.addi; simp
  rw [e1]
  exact cmpi_eq_ofNat (by omega) (by omega)

/-- The output block's mask: a coordinate word equals zero exactly when the coordinate is zero. -/
theorem cmpi_zero {n : ℕ} (hn : n < 2 ^ 32) : IntOp.cmpi .eq (BitVec.ofNat 32 n) 0#32 = bit n 0 :=
  cmpi_eq_ofNat hn (by decide)

end Cert.Diagonal
-- ==== Proof.Spec.lean ====
/-
  The loss both programs compute, as one function of the two normalized arrays, and the regrouping of its sum.

  For normalized arrays X, Y (8192 rows of 1024 features each) the similarity of row r of X and row c of Y is
  S(r, c) = Σ_k X(r, k) · Y(c, k), its loss is  1 - S  on the diagonal r = c and  max(S - 0, 0)  off it, and the
  result is the sum of all 8192² losses (then divided by 8192²).

  The reference sums the whole matrix at once. The kernel sums it tile by tile: row block i (512 rows) against column
  block j (1024 columns), the eight tiles of a row block added one after the other into a running total, the sixteen
  totals written to every eighth row of a 128 x 128 array that is zero elsewhere, and that array summed. Addition of
  extended reals is commutative and associative, so every grouping gives the same sum: no finiteness is needed.
-/
import proofs.«158679_j36610301231301_1_alg».proof.Proof.Diagonal
import Idealize.ShloMosaic.Lib.ValueIdx
import Idealize.ShloMosaic.PureOps.Ideal.Laws

noncomputable section

namespace Cert.CosineLoss

open Idealize.ShloMosaic Idealize.ShloMosaic.ValueIdx

/-- The loss at similarity `s`, `d` the one-bit diagonal test: `1 - s` on the diagonal, `max (s - 0) 0` off it
    (the constants kept as the words both programs print). -/
def loss (d : BitVec 1) (s : EReal) : EReal :=
  Scalar.select d (Ideal.ofBits .f32 0x3F800000#32 - s)
    (max (s - Ideal.ofBits .f32 0x00000000#32) (Ideal.ofBits .f32 0x00000000#32))

/-- Row `r` of an array of 8192 rows, by its natural number (zero past the end, where nothing is ever read). -/
def row (X : (⟨2, ![8192, 1024]⟩ : Shape).Idx → EReal) (r : ℕ) (k : Fin 1024) : EReal :=
  if h : r < 8192 then X (ix2 ⟨r, h⟩ k) else 0

theorem row_of_lt (X : (⟨2, ![8192, 1024]⟩ : Shape).Idx → EReal) (r : Fin 8192) (k : Fin 1024) :
    row X r.val k = X (ix2 r k) := dif_pos r.isLt

/-- The loss of row `r` of `X` against row `c` of `Y`. -/
def entry (X Y : (⟨2, ![8192, 1024]⟩ : Shape).Idx → EReal) (r c : ℕ) : EReal :=
  loss (Cert.Diagonal.bit r c) (∑ k : Fin 1024, row X r k * row Y c k)

/-- The total loss of the tile of row block `i` against column block `j`. -/
def tileTotal (X Y : (⟨2, ![8192, 1024]⟩ : Shape).Idx → EReal) (i j : ℕ) : EReal :=
  ∑ p : Fin 512, ∑ q : Fin 1024, entry X Y (512 * i + p.val) (1024 * j + q.val)

/-! ### Sums over a product of ranges -/

/-- A sum over `A · B` consecutive numbers is the sum over `A` blocks of `B`. -/
theorem sum_blocks {M : Type*} [AddCommMonoid M] (A B : ℕ) (f : ℕ → M) :
    ∑ r : Fin (A * B), f r.val = ∑ a : Fin A, ∑ b : Fin B, f (B * a.val + b.val) := by
  rw [← Fintype.sum_prod_type' (fun (a : Fin A) (b : Fin B) => f (B * a.val + b.val))]
  refine (Fintype.sum_equiv finProdFinEquiv _ _ fun x => ?_).symm
  show f (B * x.1.val + x.2.val) = f (x.2.val + B * x.1.val)
  rw [Nat.add_comm]

/-- THE REGROUPING: the sum of all losses is the sum over the 16 x 8 tiles of each tile's total. -/
theorem sum_entries_eq_tiles (X Y : (⟨2, ![8192, 1024]⟩ : Shape).Idx → EReal) :
    ∑ idx : (⟨2, ![8192, 8192]⟩ : Shape).Idx, entry X Y (idx 0).val (idx 1).val
      = ∑ i : Fin 16, ∑ j : Fin 8, tileTotal X Y i.val j.val := by
  rw [sum_idx2]
  have hr := sum_blocks 16 512 (fun r => ∑ c : Fin 8192, entry X Y r c.val)
  have hc : ∀ r : ℕ, ∑ c : Fin 8192, entry X Y r c.val
      = ∑ j : Fin 8, ∑ q : Fin 1024, entry X Y r (1024 * j.val + q.val) := fun r => sum_blocks 8 1024 (fun c => entry X Y r c)
  refine (hr.trans ?_)
  refine Finset.sum_congr rfl fun i _ => ?_
  simp only [hc]
  rw [Finset.sum_comm]
  rfl

/-- The 128 x 128 array that holds `g i` at row `8 i`, column 0 and zero elsewhere sums to `Σ_i g i`. -/
theorem sum_masked (g : ℕ → EReal) :
    ∑ idx : (⟨2, ![128, 128]⟩ : Shape).Idx,
        (if (idx 0).val % 8 = 0 ∧ (idx 1).val = 0 then g ((idx 0).val / 8) else (0 : EReal))
      = ∑ i : Fin 16, g i.val := by
  rw [sum_idx2]
  have inner : ∀ a : Fin 128, ∑ b : Fin 128, (if a.val % 8 = 0 ∧ b.val = 0 then g (a.val / 8) else (0 : EReal))
      = if a.val % 8 = 0 then g (a.val / 8) else 0 := fun a => by
    rw [Finset.sum_eq_single (0 : Fin 128)]
    · simp
    · intro b _ hb
      have : b.val ≠ 0 := fun h => hb (Fin.ext h)
      simp [this]
    · intro h; exact absurd (Finset.mem_univ _) h
  show ∑ a : Fin 128, ∑ b : Fin 128, (if a.val % 8 = 0 ∧ b.val = 0 then g (a.val / 8) else (0 : EReal)) = _
  simp only [inner]
  refine (sum_blocks 16 8 (fun a => if a % 8 = 0 then g (a / 8) else 0)).trans ?_
  refine Finset.sum_congr rfl fun i _ => ?_
  rw [Finset.sum_eq_single (0 : Fin 8)]
  · have h1 : (8 * i.val + (0 : Fin 8).val) % 8 = 0 := by show (8 * i.val + 0) % 8 = 0; omega
    have h2 : (8 * i.val + (0 : Fin 8).val) / 8 = i.val := by show (8 * i.val + 0) / 8 = i.val; omega
    rw [if_pos h1, h2]
  · intro u _ hu
    have : u.val ≠ 0 := fun h => hu (Fin.ext h)
    have h1 : ¬ (8 * i.val + u.val) % 8 = 0 := by have := u.isLt; omega
    rw [if_neg h1]
  · intro h; exact absurd (Finset.mem_univ _) h

/-- Eight tiles added one after the other from zero: the running total after tile `j` is the sum of tiles `0 … j`. -/
theorem running_total (z : EReal) (hz : z = 0) (t : ℕ → EReal) (a : ℕ → EReal) (J : ℕ)
    (h0 : a 0 = z + t 0) (hs : ∀ j, j < J → a (j + 1) = a j + t (j + 1)) (j : ℕ) (hj : j ≤ J) :
    a j = ∑ k ∈ Finset.range (j + 1), t k := by
  induction j with
  | zero => rw [h0, hz, zero_add, Finset.sum_range_one]
  | succ j ih => rw [hs j (by omega), ih (by omega), Finset.sum_range_succ (n := j + 1)]

end Cert.CosineLoss
end
-- ==== Proof.Tile.lean ====
/-
  The tile of losses one grid point adds to the running total, as a number.

  For the 512 rows of a block `x` of normalized left vectors and the 1024 rows of a block `y` of normalized right
  vectors, the body forms every similarity  s(p, q) = Σ_k x(p, k) · y(q, k)  (a matrix product contracting the
  feature axis of both, into a zero accumulator), turns it into the loss
      1 - s            where the global row 512·i + p equals the global column 1024·j + q,
      max(s - 0, 0)    elsewhere,
  sums each row, sums the 512 row sums, and adds the result to the previous total. Over the extended reals the two
  lane reductions are plain finite sums, so the update is   acc + Σ_p Σ_q loss(p, q).
  The masked output block is the new total at entry (0, 0) and zero elsewhere.
-/
import proofs.«158679_j36610301231301_1_alg».proof.Proof.Gen.KernelIdeal.Skeleton
import proofs.«158679_j36610301231301_1_alg».proof.Proof.LibColumn
import proofs.«158679_j36610301231301_1_alg».proof.Proof.LibRowLayout
import proofs.«158679_j36610301231301_1_alg».proof.Proof.Spec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx
open Cert.CosineLoss (loss)

/-- The similarity of row `p` of `x` and row `q` of `y`. -/
def sim (x : FVec Ideal S512x1024 .bf16) (y : FVec Ideal S1024x1024 .bf16) (p : Fin 512) (q : Fin 1024) : EReal :=
  ∑ k : Fin 1024, x (ix2 p k) * y (ix2 q k)

/-- The total loss of the tile of row block `i` against column block `j`. -/
def tile (i j : ℕ) (x : FVec Ideal S512x1024 .bf16) (y : FVec Ideal S1024x1024 .bf16) : EReal :=
  ∑ p : Fin 512, ∑ q : Fin 1024, loss (Cert.Diagonal.bit (512 * i + p.val) (1024 * j + q.val)) (sim x y p q)

/-! ### The matrix product at an entry -/

theorem lhs_axis0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_axis1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_axis0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_axis1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product into the zero accumulator, at (p, q), is the similarity of row p and row q. -/
theorem product_apply (x : FVec Ideal S512x1024 .bf16) (y : FVec Ideal S1024x1024 .bf16) (p : Fin 512) (q : Fin 1024) :
    matmul dot_S512x1024_S1024x1024_S512x1024_1_1_0_0_n_n none x y (constant (F := Ideal) S512x1024 .f32 0x00000000#32) (ix2 p q) = sim x y p q := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ### The two reductions and the layout steps between them -/

/-- The sum of a column of 512 entries, over the extended reals. -/
theorem column_sum (v : FVec Ideal S512x1 .f32) (acc : BitVec 32) (h : S512x1.Reduces [0] S1) (hφ : FKind.Formats .f32)
    (hacc : acc = FKind.add.neutral .f32 hφ) (j : S1.Idx) :
    multiReduction .add [0] S1 v acc h hφ hacc j = ∑ p : Fin 512, v (ix2 p (0 : Fin 1)) := by
  refine (Ideal.multiReduction_add_single v _ h hφ hacc j).trans ?_
  refine Finset.sum_congr rfl fun k _ => congrArg v (funext fun c => Fin.ext ?_)
  match c with
  | ⟨0, _⟩ => rfl
  | ⟨1, _⟩ => show (j 0).val = 0; have : (j 0).val < 1 := (j 0).isLt; omega

/-- A one-entry vector viewed as a one-entry matrix keeps its entry. -/
theorem single_apply {α : Type} (w : S1.Idx → α) (h : S1.ShapeCasts S1x1) (j : S1x1.Idx) :
    shapeCast S1x1 w h j = w (ix1 (0 : Fin 1)) :=
  shapeCast_apply w h j (ix1 (0 : Fin 1)) (by
    have h1 := (S1.rowMajor (ix1 (0 : Fin 1))).isLt
    have h2 := (S1x1.rowMajor j).isLt
    have e1 : S1.numel = 1 := by decide
    have e2 : S1x1.numel = 1 := by decide
    omega)

/-! ### The cell's update and the masked block -/

/-- THE UPDATE: the cell's new value is its old value plus the tile's total loss. -/
theorem cell_update (i : grid0.Coords) (x : Vec Ideal S512x1024 .bf16) (y : Vec Ideal S1024x1024 .bf16)
    (acc : Vec Ideal S1x1 .f32) (j : S1x1.Idx) :
    k0_pay3 (F := Ideal) i x y acc j = acc j + tile (i 0).val (i 1).val x y := by
  unfold k0_pay3
  dsimp only
  rw [shapeCast_self]
  show acc j + _ = acc j + _
  refine congrArg (acc j + ·) ?_
  refine (single_apply _ _ j).trans ?_
  refine (column_sum _ _ _ _ _ (ix1 (0 : Fin 1))).trans ?_
  refine Finset.sum_congr rfl fun p _ => ?_
  refine (Cert.NegDist.Column.column_of_vector_apply _ _ p (0 : Fin 1)).trans ?_
  refine (Cert.RowLayout.sumCols_apply _ _ _ _ _ p).trans ?_
  refine Finset.sum_congr rfl fun q _ => ?_
  rw [shapeCast_self, shapeCast_self]
  simp only [select_apply, subf_apply, maximumf_apply, broadcast_apply, product_apply]
  have hd : cmpi CmpIPredicate.eq
        (addi (broadcast S512x1024 (Scalar.muli (BitVec.ofNat 32 (i 0).val) 512#32))
          (iota Kind.tc S512x1024 32 [0] iota_S512x1024_d0_w32))
        (addi (broadcast S512x1024 (Scalar.muli (BitVec.ofNat 32 (i 1).val) 1024#32))
          (iota Kind.tc S512x1024 32 [1] iota_S512x1024_d1_w32))
        (ix2 p q) = Cert.Diagonal.bit (512 * (i 0).val + p.val) (1024 * (i 1).val + q.val) := by
    show IntOp.cmpi .eq (IntOp.addi (Scalar.muli _ 512#32) (iota Kind.tc S512x1024 32 [0] _ (ix2 p q)))
      (IntOp.addi (Scalar.muli _ 1024#32) (iota Kind.tc S512x1024 32 [1] _ (ix2 p q))) = _
    rw [iota_single_apply, iota_single_apply]
    exact Cert.Diagonal.kernel_test (i 0).isLt (i 1).isLt p.isLt q.isLt
  rw [hd]
  rfl

/-- The zero the body stores when it clears the cell. -/
theorem cleared (j : S1x1.Idx) : k0_pay2 (F := Ideal) j = Ideal.ofBits .f32 0x00000000#32 := by
  unfold k0_pay2
  rw [shapeCast_self]
  rfl

/-- THE MASK: the output block holds the cell's value at entry (0, 0) and the zero word elsewhere. -/
theorem masked (v : Vec Ideal S1x1 .f32) (u : Fin 8) (w : Fin 128) :
    k0_pay1 (F := Ideal) (iota .tc S8x128 32 [1] iota_S8x128_d1_w32) k0_pay4 v (ix2 u w)
      = if u.val = 0 ∧ w.val = 0 then v (ix2 (0 : Fin 1) (0 : Fin 1)) else Ideal.ofBits .f32 0x00000000#32 := by
  unfold k0_pay1 k0_pay4
  show Scalar.select (IntOp.andi (IntOp.cmpi .eq (iota Kind.tc S8x128 32 [0] _ (ix2 u w)) 0#32)
      (IntOp.cmpi .eq (iota Kind.tc S8x128 32 [1] _ (ix2 u w)) 0#32)) (extractAt ![0, 0] v _) (Ideal.ofBits .f32 0x00000000#32) = _
  rw [iota_single_apply, iota_single_apply,
    Cert.Diagonal.cmpi_zero (show (ix2 u w (0 : Fin 2)).val < 2 ^ 32 from lt_trans u.isLt (by decide)),
    Cert.Diagonal.cmpi_zero (show (ix2 u w (1 : Fin 2)).val < 2 ^ 32 from lt_trans w.isLt (by decide))]
  show Scalar.select (IntOp.andi (Cert.Diagonal.bit u.val 0) (Cert.Diagonal.bit w.val 0)) _ _ = _
  have hv : extractAt ![0, 0] v inpos_S1x1_p0_0 = v (ix2 (0 : Fin 1) (0 : Fin 1)) :=
    congrArg v (funext fun a => Fin.ext (by match a with | ⟨0, _⟩ => rfl | ⟨1, _⟩ => rfl))
  by_cases hu : u.val = 0
  · by_cases hw : w.val = 0
    · rw [hu, hw, Cert.Diagonal.bit_self, if_pos ⟨rfl, rfl⟩]
      exact hv
    · rw [Cert.Diagonal.bit_ne hw, if_neg (fun h => hw h.2)]
      rw [show IntOp.andi (Cert.Diagonal.bit u.val 0) 0#1 = 0#1 from by unfold IntOp.andi; simp]
      rfl
  · rw [Cert.Diagonal.bit_ne hu, if_neg (fun h => hu h.1)]
    rw [show IntOp.andi 0#1 (Cert.Diagonal.bit w.val 0) = 0#1 from by unfold IntOp.andi; simp]
    rfl

end Cert.KernelIdeal.Tile
end
-- ==== Proof.Running.lean ====
/-
  The kernel's output array after the whole grid, as a function of the two normalized arrays.

  The grid has 16 x 8 points; point number t handles row block t / 8 against column block t % 8. Its input blocks are
  rows 512·(t/8) … of the normalized left array and rows 1024·(t%8) … of the normalized right array, so the number it
  adds to the running cell is the total loss of tile (t/8, t%8) of the whole loss matrix. The cell is cleared at the
  first point of each row block, hence after point 8·i + j it holds the sum of tiles (i, 0) … (i, j), and after the last
  point of the row block the sum of all eight. The output block of row block i (rows 8·i … 8·i + 7 of a 128 x 128
  array) is written back after that last point: the cell at its entry (0, 0), zero elsewhere.
-/
import proofs.«158679_j36610301231301_1_alg».proof.Proof.Gen.KernelIdeal.Frame
import proofs.«158679_j36610301231301_1_alg».proof.Proof.Stored
import proofs.«158679_j36610301231301_1_alg».proof.Proof.Tile
import proofs.«158679_j36610301231301_1_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Running

open Cert.KernelIdeal Cert.KernelIdeal.Gen Idealize.ShloMosaic.ValueIdx
open Cert.CosineLoss (row entry tileTotal)

variable (m : (ℓ : Loc nD τ sig) → Buf (Elt Ideal) ℓ)

/-- The normalized left and right arrays, as the kernel region finds them. -/
abbrev X (c : Dev nD) : (⟨2, ![8192, 1024]⟩ : Shape).Idx → EReal := V m c main_v10
abbrev Y (c : Dev nD) : (⟨2, ![8192, 1024]⟩ : Shape).Idx → EReal := V m c main_v11

/-- The two input blocks of point `t`. -/
abbrev xblk (c : Dev nD) (t : Fin cfg0.N) : Vec Ideal S512x1024 .bf16 := iblk m c 0 t
abbrev yblk (c : Dev nD) (t : Fin cfg0.N) : Vec Ideal S1024x1024 .bf16 := iblk m c 1 t

theorem npoints : cfg0.N = 128 := N_0

/-- Point `t` is row block `t / 8`, column block `t % 8`; its blocks sit at those block indices. -/
theorem schedule : ∀ t : Fin cfg0.N, (grid0.coords t 0).val = t.val / 8 ∧ (grid0.coords t 1).val = t.val % 8
    ∧ win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The left block of point `t` is rows `512·(t/8) + p` of the normalized left array. -/
theorem xblk_apply (c : Dev nD) (t : Fin cfg0.N) (p : Fin 512) (k : Fin 1024) :
    xblk m c t (ix2 p k) = row (X m c) (512 * (t.val / 8) + p.val) k := by
  have hN : t.val < 128 := lt_of_lt_of_eq t.isLt npoints
  have hlt : 512 * (t.val / 8) + p.val < 8192 := by have := p.isLt; omega
  obtain ⟨-, -, e0, e1, -⟩ := schedule t
  unfold row
  rw [dif_pos hlt]
  show iblk m c 0 t (ix2 p k) = _
  unfold iblk
  rw [View.read_apply]
  show V m c main_v10 _ = V m c main_v10 _
  congr 1
  funext a
  apply Fin.ext
  match a with
  | ⟨0, _⟩ => show win0_0.index t (0 : Fin 2) * 512 + 1 * p.val = 512 * (t.val / 8) + p.val; rw [e0]; omega
  | ⟨1, _⟩ => show win0_0.index t (1 : Fin 2) * 1024 + 1 * k.val = k.val; rw [e1]; omega

/-- The right block of point `t` is rows `1024·(t%8) + q` of the normalized right array. -/
theorem yblk_apply (c : Dev nD) (t : Fin cfg0.N) (q : Fin 1024) (k : Fin 1024) :
    yblk m c t (ix2 q k) = row (Y m c) (1024 * (t.val % 8) + q.val) k := by
  have hlt : 1024 * (t.val % 8) + q.val < 8192 := by have := q.isLt; omega
  obtain ⟨-, -, -, -, e0, e1, -⟩ := schedule t
  unfold row
  rw [dif_pos hlt]
  show iblk m c 1 t (ix2 q k) = _
  unfold iblk
  rw [View.read_apply]
  show V m c main_v11 _ = V m c main_v11 _
  congr 1
  funext a
  apply Fin.ext
  match a with
  | ⟨0, _⟩ => show win0_1.index t (0 : Fin 2) * 1024 + 1 * q.val = 1024 * (t.val % 8) + q.val; rw [e0]; omega
  | ⟨1, _⟩ => show win0_1.index t (1 : Fin 2) * 1024 + 1 * k.val = k.val; rw [e1]; omega

/-- So the number point `t` adds to the cell is the total of tile (t/8, t%8) of the whole loss matrix. -/
theorem tile_eq (c : Dev nD) (t : Fin cfg0.N) :
    Tile.tile (t.val / 8) (t.val % 8) (xblk m c t) (yblk m c t) = tileTotal (X m c) (Y m c) (t.val / 8) (t.val % 8) := by
  unfold Tile.tile tileTotal entry Tile.sim
  refine Finset.sum_congr rfl fun p _ => Finset.sum_congr rfl fun q _ => ?_
  refine congrArg (Cert.CosineLoss.loss _) (Finset.sum_congr rfl fun k _ => ?_)
  rw [xblk_apply, yblk_apply]

/-! ### The cell and the output block after each point -/

/-- First point of a row block: the cell ends at zero plus the tile's total. -/
theorem cell_first (c : Dev nD) (t : Fin cfg0.N) (h0 : t.val % 8 = 0) (j : S1x1.Idx) :
    (outsAt0 m c t.val t.isLt).2 j
      = Ideal.ofBits .f32 0x00000000#32 + tileTotal (X m c) (Y m c) (t.val / 8) (t.val % 8) := by
  rw [outsAt0_A m c t h0]
  dsimp only
  rw [Stored.cell_first c (grid0.coords t) (ms0_0 t) (hs0_0 t) (ms0_1 t) (hs0_1 t) (ms0_2 t) (hs0_2 t) scM0_0
    (Memref.isWhole_whole _) ((hcond0_0 t).mpr h0) (iblk m c 0 t) (iblk m c 1 t)]
  rw [Tile.cell_update, Tile.cleared, (schedule t).1, (schedule t).2.1]
  exact congrArg (_ + ·) (tile_eq m c t)

/-- Any later point: the cell ends at what the point before left plus the tile's total. -/
theorem cell_next (c : Dev nD) (t : Fin cfg0.N) (h0 : ¬t.val % 8 = 0) (j : S1x1.Idx) :
    (outsAt0 m c t.val t.isLt).2 j
      = (outsAt0 m c (t.val - 1) (Nat.lt_of_le_of_lt (Nat.sub_le _ _) t.isLt)).2 j
        + tileTotal (X m c) (Y m c) (t.val / 8) (t.val % 8) := by
  rw [outsAt0_B m c t h0]
  dsimp only
  rw [Stored.cell_next c (grid0.coords t) (ms0_0 t) (hs0_0 t) (ms0_1 t) (hs0_1 t) (ms0_2 t) (hs0_2 t) scM0_0
    (Memref.isWhole_whole _) (fun h => h0 ((hcond0_0 t).mp h)) (iblk m c 0 t) (iblk m c 1 t)
    (outsAt0 m c (t.val - 1) (Nat.lt_of_le_of_lt (Nat.sub_le _ _) t.isLt)).2]
  rw [Tile.cell_update, (schedule t).1, (schedule t).2.1]
  exact congrArg (_ + ·) (tile_eq m c t)

/-- At every point the output block is the mask of the cell. -/
theorem block_at (c : Dev nD) (t : Fin cfg0.N) :
    (outsAt0 m c t.val t.isLt).1 = k0_pay1 Stored.lanes k0_pay4 (outsAt0 m c t.val t.isLt).2 := by
  by_cases h0 : t.val % 8 = 0
  · rw [outsAt0_A m c t h0]
    dsimp only
    rw [Stored.block_first c (grid0.coords t) (ms0_0 t) (hs0_0 t) (ms0_1 t) (hs0_1 t) (ms0_2 t) (hs0_2 t) scM0_0
      (Memref.isWhole_whole _) ((hcond0_0 t).mpr h0) (iblk m c 0 t) (iblk m c 1 t),
      Stored.cell_first c (grid0.coords t) (ms0_0 t) (hs0_0 t) (ms0_1 t) (hs0_1 t) (ms0_2 t) (hs0_2 t) scM0_0
      (Memref.isWhole_whole _) ((hcond0_0 t).mpr h0) (iblk m c 0 t) (iblk m c 1 t)]
  · rw [outsAt0_B m c t h0]
    dsimp only
    rw [Stored.block_next c (grid0.coords t) (ms0_0 t) (hs0_0 t) (ms0_1 t) (hs0_1 t) (ms0_2 t) (hs0_2 t) scM0_0
      (Memref.isWhole_whole _) (fun h => h0 ((hcond0_0 t).mp h)) (iblk m c 0 t) (iblk m c 1 t)
      (outsAt0 m c (t.val - 1) (Nat.lt_of_le_of_lt (Nat.sub_le _ _) t.isLt)).2,
      Stored.cell_next c (grid0.coords t) (ms0_0 t) (hs0_0 t) (ms0_1 t) (hs0_1 t) (ms0_2 t) (hs0_2 t) scM0_0
      (Memref.isWhole_whole _) (fun h => h0 ((hcond0_0 t).mp h)) (iblk m c 0 t) (iblk m c 1 t)
      (outsAt0 m c (t.val - 1) (Nat.lt_of_le_of_lt (Nat.sub_le _ _) t.isLt)).2]

/-- The cell after point number `n` (zero past the grid, where there is no point). -/
def cell (c : Dev nD) (n : ℕ) : EReal :=
  if h : n < cfg0.N then (outsAt0 m c n h).2 (ix2 (0 : Fin 1) (0 : Fin 1)) else 0

theorem cell_of_lt (c : Dev nD) (t : Fin cfg0.N) : cell m c t.val = (outsAt0 m c t.val t.isLt).2 (ix2 (0 : Fin 1) (0 : Fin 1)) :=
  dif_pos t.isLt

/-- THE RUNNING TOTAL: after point `8·i + j` the cell holds the sum of tiles (i, 0) … (i, j). -/
theorem cell_eq_sum (c : Dev nD) (i : Fin 16) (j : ℕ) (hj : j ≤ 7) :
    cell m c (8 * i.val + j) = ∑ k ∈ Finset.range (j + 1), tileTotal (X m c) (Y m c) i.val k := by
  refine Cert.CosineLoss.running_total (Ideal.ofBits .f32 0x00000000#32) Ideal.ofBits_zero_f32
    (fun k => tileTotal (X m c) (Y m c) i.val k) (fun j => cell m c (8 * i.val + j)) 7 ?_ ?_ j hj
  · have hlt : 8 * i.val + 0 < cfg0.N := by rw [npoints]; have := i.isLt; omega
    have h := cell_first m c ⟨8 * i.val + 0, hlt⟩ (by show (8 * i.val + 0) % 8 = 0; omega) (ix2 (0 : Fin 1) (0 : Fin 1))
    rw [show (8 * i.val + 0) / 8 = i.val from by omega, show (8 * i.val + 0) % 8 = 0 from by omega] at h
    show cell m c (8 * i.val + 0) = _
    rw [cell_of_lt m c ⟨8 * i.val + 0, hlt⟩]
    exact h
  · intro j hj
    have hlt : 8 * i.val + (j + 1) < cfg0.N := by rw [npoints]; have := i.isLt; omega
    have hlt' : 8 * i.val + j < cfg0.N := by rw [npoints]; have := i.isLt; omega
    have h := cell_next m c ⟨8 * i.val + (j + 1), hlt⟩ (by show ¬(8 * i.val + (j + 1)) % 8 = 0; omega) (ix2 (0 : Fin 1) (0 : Fin 1))
    rw [show (8 * i.val + (j + 1)) / 8 = i.val from by omega, show (8 * i.val + (j + 1)) % 8 = j + 1 from by omega] at h
    show cell m c (8 * i.val + (j + 1)) = cell m c (8 * i.val + j) + _
    rw [cell_of_lt m c ⟨8 * i.val + (j + 1), hlt⟩, cell_of_lt m c ⟨8 * i.val + j, hlt'⟩]
    exact h

/-- After the last point of row block `i` the cell holds the sum of its eight tiles. -/
theorem cell_last (c : Dev nD) (i : Fin 16) :
    cell m c (8 * i.val + 7) = ∑ j : Fin 8, tileTotal (X m c) (Y m c) i.val j.val := by
  rw [cell_eq_sum m c i 7 (le_refl _)]
  exact Finset.sum_range (fun k => tileTotal (X m c) (Y m c) i.val k)

end Cert.KernelIdeal.Running
end
-- ==== Proof.Result.lean ====
/-
  The kernel program's result, as a function of its two arguments.

  Before the kernel region the host normalizes each argument row by row (x / max(‖x‖, ε), then a change of float
  format, which over the extended reals changes nothing). After the region the host sums the 128 x 128 output array and
  divides by 8192². The output array holds, at row 8·i and column 0, the running cell after the last point of row block
  i, and zero elsewhere: each of its sixteen 8 x 128 blocks is written back once, after the eighth point of its row block.
-/
import proofs.«158679_j36610301231301_1_alg».proof.Proof.Running
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx

variable (m : (ℓ : Loc nD τ sig) → Buf (Elt Ideal) ℓ) (ρ : Dev nD → PrngReg)

/-- The output array after the run: the last cell of row block `i` at (8·i, 0), the zero word elsewhere. -/
def out (c : Dev nD) : (⟨2, ![128, 128]⟩ : Shape).Idx → EReal := fun idx =>
  if (idx 0).val % 8 = 0 ∧ (idx 1).val = 0 then Running.cell m c (8 * ((idx 0).val / 8) + 7)
  else Ideal.ofBits .f32 0x00000000#32

/-- What the one write-back of a row block writes is that block of `out`. -/
theorem flushed_eq (c : Dev nD) (t : Fin cfg0.N) (hf : (cfg0.win 2).flush t = true) :
    (dats m 0 c).flushed 2 t = ((cfg0.win 2).blk t).view.read (Elt Ideal) (out m c) := by
  have h7 : t.val % 8 = 7 := (flush0_2 t).mp hf
  obtain ⟨-, -, -, -, -, -, e0, e1⟩ := Running.schedule t
  show (cfg0.win 2).cut (grid0.coords t) ((dats m 0 c).after 2 t) = _
  rw [after0_2, Running.block_at]
  funext y
  obtain ⟨u, w, rfl⟩ : ∃ (u : Fin 8) (w : Fin 128), y = ix2 u w := ⟨y 0, y 1, eq_ix2 y⟩
  rw [View.read_apply]
  show k0_pay1 Stored.lanes k0_pay4 (outsAt0 m c t.val t.isLt).2 (ix2 u w) = out m c (((cfg0.win 2).blk t).view.emb (ix2 u w))
  rw [Tile.masked]
  have a0 : ((((cfg0.win 2).blk t).view.emb (ix2 u w)) 0).val = 8 * (t.val / 8) + u.val := by
    show win0_2.index t (0 : Fin 2) * 8 + 1 * u.val = _; rw [e0]; omega
  have a1 : ((((cfg0.win 2).blk t).view.emb (ix2 u w)) 1).val = w.val := by
    show win0_2.index t (1 : Fin 2) * 128 + 1 * w.val = _; rw [e1]; omega
  unfold out
  rw [a0, a1]
  have hu : u.val < 8 := u.isLt
  by_cases hc : u.val = 0 ∧ w.val = 0
  · rw [if_pos hc, if_pos ⟨by omega, hc.2⟩]
    rw [show 8 * ((8 * (t.val / 8) + u.val) / 8) + 7 = t.val from by omega, Running.cell_of_lt]
  · rw [if_neg hc, if_neg (fun h => hc ⟨by omega, h.2⟩)]

/-- Every entry of the output array lies in the block of its row block, which is written back after point 8·i + 7. -/
theorem cover (c : Dev nD) (i : S128x128.Idx) :
    ∃ t : Fin cfg0.N, (cfg0.win 2).flush t = true ∧ i ∈ ((cfg0.win 2).blk t).view.set := by
  have hi0 : (i 0).val < 128 := (i 0).isLt
  have hi1 : (i 1).val < 128 := (i 1).isLt
  have hlt : 8 * ((i 0).val / 8) + 7 < cfg0.N := by rw [Running.npoints]; omega
  obtain ⟨t, ht⟩ : ∃ t : Fin cfg0.N, t.val = 8 * ((i 0).val / 8) + 7 := ⟨⟨_, hlt⟩, rfl⟩
  refine ⟨t, (flush0_2 t).mpr (by omega), ?_⟩
  obtain ⟨-, -, -, -, -, -, e0, e1⟩ := Running.schedule t
  show i ∈ ((View.whole main_v12).slice (win0_2.rect t)).set
  rw [View.set_slice_whole, Rect.mem_set_unit]
  intro a
  match a with
  | ⟨0, _⟩ =>
    show win0_2.index t (0 : Fin 2) * 8 ≤ (i 0).val ∧ (i 0).val < win0_2.index t (0 : Fin 2) * 8 + 8
    rw [e0]; omega
  | ⟨1, _⟩ =>
    show win0_2.index t (1 : Fin 2) * 128 ≤ (i 1).val ∧ (i 1).val < win0_2.index t (1 : Fin 2) * 128 + 128
    rw [e1]; omega

/-- So the output array ends at `out`. -/
theorem final (c : Dev nD) : (dats m 0 c).arrAt 2 cfg0.N = out m c :=
  (dats m 0 c).arrAt_eq_of_cover 2 (out m c) (flushed_eq m c) (cover c)

/-- The host's last lines: the sum of the output array from zero, divided by 8192². -/
theorem value_eq (c : Dev nD) :
    Pipeline.afterTail₀ cfgs (dats m) 0 (V0 m) [hostOps1] c main_v14
      = Host.divf (Host.reduceAdd (out m c) (constant (F := Ideal) S_ .f32 0x00000000#32) Facts₀.reducesTo_S128x128_S_d0_1 Facts₀.h_S_)
          (constant (F := Ideal) S_ .f32 0x4C800000#32) := by
  unfold Pipeline.afterTail₀
  show StableHlo.after hostOps1 _ (Proc.devRef .tc main_v14) = _
  after_results
  rw [show Pipeline.withArrays (cfgs 0).spec c (V0 m c) (fun w => (dats m 0 c).arrAt w (cfgs 0).N) (Proc.devRef .tc main_v12)
      = out m c from (Pipeline.withArrays_arr spec0 launch0.win.arr_inj c _ _ 2).trans (final m c)]

/-- THE RUN, READ: every weakly fair execution of the kernel program ends with its result at that value and its
    arguments unchanged. -/
theorem run : θ_run defs (onTc (τ := τ) (main (F := Ideal))) ⟨m, fun _ => 0, ρ⟩ fun r => ∀ c : Dev nD,
      r.2.mem ((c.tc : Thread nD τ).loc main_v14)
        = Host.divf (Host.reduceAdd (out m c) (constant (F := Ideal) S_ .f32 0x00000000#32) Facts₀.reducesTo_S128x128_S_d0_1 Facts₀.h_S_)
            (constant (F := Ideal) S_ .f32 0x4C800000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v14 (Pipeline.mem_restRefs_of main_v14 (by decide) (by decide))).trans (value_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

/-- The sum of the output array is the sum of all 8192² losses: sixteen cells, each the sum of its eight tiles. -/
theorem sum_out (c : Dev nD) :
    ∑ idx : (⟨2, ![128, 128]⟩ : Shape).Idx, out m c idx
      = ∑ idx : (⟨2, ![8192, 8192]⟩ : Shape).Idx, Cert.CosineLoss.entry (Running.X m c) (Running.Y m c) (idx 0).val (idx 1).val := by
  have h1 : ∑ idx : (⟨2, ![128, 128]⟩ : Shape).Idx, out m c idx = ∑ i : Fin 16, Running.cell m c (8 * i.val + 7) := by
    unfold out
    simp only [Ideal.ofBits_zero_f32]
    exact Cert.CosineLoss.sum_masked (fun i => Running.cell m c (8 * i + 7))
  rw [h1, Cert.CosineLoss.sum_entries_eq_tiles]
  exact Finset.sum_congr rfl fun i _ => Running.cell_last m c i

/-- THE KERNEL PROGRAM'S VALUE: all the losses summed from zero, divided by 8192². -/
theorem value_apply (c : Dev nD) (i : S_.Idx) :
    Host.divf (Host.reduceAdd (out m c) (constant (F := Ideal) S_ .f32 0x00000000#32) Facts₀.reducesTo_S128x128_S_d0_1 Facts₀.h_S_)
        (constant (F := Ideal) S_ .f32 0x4C800000#32) i
      = FloatOps.hostDivf (Ideal.ofBits .f32 0x00000000#32
          + ∑ idx : (⟨2, ![8192, 8192]⟩ : Shape).Idx, Cert.CosineLoss.entry (Running.X m c) (Running.Y m c) (idx 0).val (idx 1).val)
        (Ideal.ofBits .f32 0x4C800000#32) := by
  show FloatOps.hostDivf (Host.reduceAdd (out m c) (constant (F := Ideal) S_ .f32 0x00000000#32) Facts₀.reducesTo_S128x128_S_d0_1 Facts₀.h_S_ i)
    (Ideal.ofBits .f32 0x4C800000#32) = _
  refine congrArg (FloatOps.hostDivf · (Ideal.ofBits .f32 0x4C800000#32)) ?_
  simp only [Host.reduceAdd, Ideal.hostReduceAdd_def]
  rw [Ideal.hostReduceAdd_total Facts₀.reducesTo_S128x128_S_d0_1 (fun b => b.elim0) _ _ i]
  exact congrArg (Ideal.ofBits .f32 0x00000000#32 + ·) (sum_out m c)

end Cert.KernelIdeal.Result
end
-- ==== Proof.Reference.lean ====
/-
  The reference program's result, as a function of its two arguments.

  The reference normalizes both arguments, forms the whole 8192 x 8192 similarity matrix by one product contracting the
  feature axis, turns each similarity into its loss (the diagonal picked out by comparing a row counter with a column
  counter), sums everything from zero and divides by 8192². Read entry by entry, its loss matrix is the one function
  `entry` of the two normalized arrays.
-/
import proofs.«158679_j36610301231301_1_alg».proof.Proof.Gen.ReferenceIdeal.Read
import proofs.«158679_j36610301231301_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.CosineLoss (row entry loss row_of_lt)

/-- The reference's loss matrix at (r, c) is the loss of row r of the normalized left array against row c of the
    normalized right array. -/
theorem losses_apply (x0 x1 : (⟨S8192x1024, .f32⟩ : BufTy).Contents (Elt Ideal)) (idx : S8192x8192.Idx) :
    val_main_v22 (F := Ideal) x0 x1 idx
      = entry (val_main_v4 (F := Ideal) x0) (val_main_v9 (F := Ideal) x1) (idx 0).val (idx 1).val := by
  have hS : ∑ k : Fin 1024, (val_main_v4 (F := Ideal) x0) (lidx_main_v10 idx k) * (val_main_v9 (F := Ideal) x1) (ridx_main_v10 idx k)
      = ∑ k : Fin 1024, row (val_main_v4 (F := Ideal) x0) (idx 0).val k * row (val_main_v9 (F := Ideal) x1) (idx 1).val k := by
    refine Finset.sum_congr rfl fun k _ => ?_
    have el : lidx_main_v10 idx k = ix2 (idx 0) k := funext fun a => by
      match a with
      | ⟨0, _⟩ => rfl
      | ⟨1, _⟩ => rfl
    have er : ridx_main_v10 idx k = ix2 (idx 1) k := funext fun a => by
      match a with
      | ⟨0, _⟩ => rfl
      | ⟨1, _⟩ => rfl
    have h1 : row (val_main_v4 (F := Ideal) x0) (idx 0).val k = val_main_v4 (F := Ideal) x0 (lidx_main_v10 idx k) :=
      (row_of_lt _ (idx 0) k).trans (congrArg _ el.symm)
    have h2 : row (val_main_v9 (F := Ideal) x1) (idx 1).val k = val_main_v9 (F := Ideal) x1 (ridx_main_v10 idx k) :=
      (row_of_lt _ (idx 1) k).trans (congrArg _ er.symm)
    rw [h1, h2]
  rw [val_main_v22_apply, val_main_v15_apply, val_main_v14_apply, val_main_v11_apply, val_main_v13_apply, val_main_c_apply,
    val_main_v12_apply, val_main_v17_apply, val_main_v16_apply, val_main_cst_1_apply, val_main_v21_apply, val_main_v19_apply,
    val_main_v18_apply, val_main_cst_2_apply, val_main_v20_apply, val_main_cst_3_apply, val_main_v10_apply, hS,
    Cert.Diagonal.reference_test (idx 0).isLt (idx 1).isLt]
  rfl

/-- The reference's result: all the losses summed from zero, divided by 8192². -/
theorem result_apply (x0 x1 : (⟨S8192x1024, .f32⟩ : BufTy).Contents (Elt Ideal)) (i : S_.Idx) :
    val_main_v24 (F := Ideal) x0 x1 i
      = FloatOps.hostDivf (Ideal.ofBits .f32 0x00000000#32
          + ∑ idx : (⟨2, ![8192, 8192]⟩ : Shape).Idx, entry (val_main_v4 (F := Ideal) x0) (val_main_v9 (F := Ideal) x1) (idx 0).val (idx 1).val)
        (Ideal.ofBits .f32 0x4C800000#32) := by
  rw [val_main_v24_apply, val_main_v23_apply, val_main_cst_4_apply, val_main_cst_5_apply]
  simp only [losses_apply]
  rfl

end Cert.ReferenceIdeal.RefValue
end
-- ==== Proof.Bridge.lean ====
/-
  The two programs compute one number.

  Both normalize their arguments by the same host operations (the kernel program then changes the float format, which
  is the identity over the extended reals), so the arrays the kernel region finds are the reference's normalized arrays
  of the same arguments. The kernel program's result is then the sum of all losses from zero divided by 8192², read
  through tiles, cells and the masked output array; the reference's is the same sum read at once.
-/
import proofs.«158679_j36610301231301_1_alg».proof.Proof.Result
import proofs.«158679_j36610301231301_1_alg».proof.Proof.Reference

noncomputable section

open Idealize.ShloMosaic Idealize.ShloMosaic.TcCoe Idealize.SL.Sem

namespace Cert.KernelIdeal.Bridge

open Cert.KernelIdeal Cert.KernelIdeal.Gen Idealize.ShloMosaic.ValueIdx

variable (m : (ℓ : Loc nD τ sig) → Buf (Elt Ideal) ℓ)

/-- The left array the region finds is the reference's normalized left argument. -/
theorem X_eq (c : Dev nD) :
    Running.X m c = Cert.ReferenceIdeal.Read.val_main_v4 (F := Ideal) (m ((c.tc : Thread nD τ).loc main_arg0)) := by
  show V m c main_v10 = _
  dsimp only [V, V0]
  simp only [hostOps0, hostOps0_1, hostOps0_2, hostOps0_3, List.flatten_cons, List.flatten_nil, List.append_nil,
    List.cons_append, List.nil_append]
  after_results
  rfl

/-- The right array the region finds is the reference's normalized right argument. -/
theorem Y_eq (c : Dev nD) :
    Running.Y m c = Cert.ReferenceIdeal.Read.val_main_v9 (F := Ideal) (m ((c.tc : Thread nD τ).loc main_arg1)) := by
  show V m c main_v11 = _
  dsimp only [V, V0]
  simp only [hostOps0, hostOps0_1, hostOps0_2, hostOps0_3, List.flatten_cons, List.flatten_nil, List.append_nil,
    List.cons_append, List.nil_append]
  after_results
  rfl

/-- THE EQUALITY: the kernel program's value is the reference's value of the same arguments. -/
theorem value_eq_reference (c : Dev nD) :
    Host.divf (Host.reduceAdd (Result.out m c) (constant (F := Ideal) S_ .f32 0x00000000#32) Facts₀.reducesTo_S128x128_S_d0_1 Facts₀.h_S_)
        (constant (F := Ideal) S_ .f32 0x4C800000#32)
      = Cert.ReferenceIdeal.Read.val_main_v24 (F := Ideal) (m ((c.tc : Thread nD τ).loc main_arg0)) (m ((c.tc : Thread nD τ).loc main_arg1)) := by
  funext i
  rw [Result.value_apply, Cert.ReferenceIdeal.RefValue.result_apply, X_eq, Y_eq]

end Cert.KernelIdeal.Bridge
end
-- ==== Proof.lean ====
/-
  Cosine-embedding loss of every row of x against every row of y (8192 rows of 1024 features each), averaged over
  the 8192² pairs: a Pallas kernel against its jnp reference, equal over the extended reals.

  Both programs normalize the rows (x / max(‖x‖, ε)). The reference forms the whole similarity matrix S = xn · ynᵀ, takes
  1 - S on the diagonal and max(S - 0, 0) off it, sums and divides by 8192². The kernel walks a 16 x 8 grid of
  512 x 1024 tiles of that matrix; at each point it adds the tile's total loss to a one-entry running cell (cleared at
  the first tile of a row block) and writes the cell, masked to entry (0, 0), to the row block's 8 x 128 output block;
  the host then sums the 128 x 128 output array and divides by 8192².

  The law that joins the two sides is only that finite sums of extended reals may be regrouped (addition is
  commutative and associative there), so the precondition is never opened:
    * Stored    — what one run of the body leaves in the cell and in the output block, as the body's pure terms;
    * Tile      — those terms as numbers: cell + Σ_p Σ_q loss(p, q), and the mask;
    * Running   — the cell after point 8·i + j is the sum of tiles (i, 0..j) of the whole loss matrix;
    * Result    — the output array after the run, the host's last lines, the kernel program's run and value;
    * Reference — the reference's loss matrix entry by entry, and its value;
    * Spec      — the loss, the tiles, and the regrouping of the sums;  Diagonal — the diagonal tests on 32-bit words;
    * Bridge    — the arrays the region finds are the reference's normalized arrays, hence one value.
  The three frames are the generated ones (the reference's is its generated run with the result dropped); the
  idealization rewrote nothing, so `preserves` is `True`.
-/
import proofs.«158679_j36610301231301_1_alg».proof.Defs
import proofs.«158679_j36610301231301_1_alg».proof.Proof.Gen.Kernel
import proofs.«158679_j36610301231301_1_alg».proof.Proof.Gen.Kernel.Skeleton
import proofs.«158679_j36610301231301_1_alg».proof.Proof.Gen.Kernel.Launch
import proofs.«158679_j36610301231301_1_alg».proof.Proof.Gen.Kernel.Points
import proofs.«158679_j36610301231301_1_alg».proof.Proof.Gen.Kernel.Frame
import proofs.«158679_j36610301231301_1_alg».proof.Proof.Gen.KernelIdeal
import proofs.«158679_j36610301231301_1_alg».proof.Proof.Gen.KernelIdeal.Skeleton
import proofs.«158679_j36610301231301_1_alg».proof.Proof.Gen.KernelIdeal.Launch
import proofs.«158679_j36610301231301_1_alg».proof.Proof.Gen.KernelIdeal.Points
import proofs.«158679_j36610301231301_1_alg».proof.Proof.Gen.KernelIdeal.Frame
import proofs.«158679_j36610301231301_1_alg».proof.Proof.Gen.ReferenceIdeal
import proofs.«158679_j36610301231301_1_alg».proof.Proof.Gen.Pre_finite_inputs
import proofs.«158679_j36610301231301_1_alg».proof.Proof.Gen.ReferenceIdeal.Run
import proofs.«158679_j36610301231301_1_alg».proof.Proof.Gen.ReferenceIdeal.Read
import proofs.«158679_j36610301231301_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the same number. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]
  exact (Cert.KernelIdeal.Bridge.value_eq_reference m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
